-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x512x512 : Shape := ⟨4, ![1, 256, 512, 512]⟩
abbrev S256 : Shape := ⟨1, ![256]⟩
abbrev S_ : Shape := ⟨0, ![]⟩

class Facts : Prop where
  bcast_S_S1x256x512x512 : S_.BroadcastsInDim S1x256x512x512 (![] : Fin 0 → Fin S1x256x512x512.rank)
  reducesTo_S1x256x512x512_S_d0_1_2_3 : S1x256x512x512.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S1x256x512x512 .f32) (main_arg1 : FVec F S256 .f32) (main_arg2 : FVec F S256 .f32) : IVec S_ 1 :=
  let main_v0 : FVec F S1x256x512x512 .f32 := Host.absf main_arg0
  let main_cst : FVec F S_ .f32 := constant S_ .f32 0x7F800000#32
  let main_v1 : FVec F S1x256x512x512 .f32 := broadcastInDim S1x256x512x512 ![] bcast_S_S1x256x512x512 main_cst
  let main_v2 : IVec S1x256x512x512 1 := cmpf .olt main_v0 main_v1
  let main_c : IVec S_ 1 := constantI S_ 1 1#1
  let main_v3 : IVec S_ 1 := (fun x v => Host.reduce IntOp.andi x v reducesTo_S1x256x512x512_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S1x256x512x512 : Shape := ⟨4, ![1, 256, 512, 512]⟩
abbrev S256 : Shape := ⟨1, ![256]⟩
abbrev S256x1x1 : Shape := ⟨3, ![256, 1, 1]⟩
abbrev S1x8x512x512 : Shape := ⟨4, ![1, 8, 512, 512]⟩
abbrev S8x1x1 : Shape := ⟨3, ![8, 1, 1]⟩
abbrev S1x8 : Shape := ⟨2, ![1, 8]⟩
abbrev S1x8x1x1 : Shape := ⟨4, ![1, 8, 1, 1]⟩

abbrev nBuf : Space → Nat
  | .hbm => 5
  | .vmem => 6
  | .smem => 0
  | _ => 0

abbrev bufTy : (tb : Table) → Fin (tcTables nBuf tb) → BufTy
  | .hbm, ⟨0, _⟩ => ⟨S1x256x512x512, .f32⟩
  | .hbm, ⟨1, _⟩ => ⟨S256, .f32⟩
  | .hbm, ⟨2, _⟩ => ⟨S256, .f32⟩
  | .hbm, ⟨3, _⟩ => ⟨S256x1x1, .f32⟩
  | .hbm, ⟨4, _⟩ => ⟨S1x256x512x512, .f32⟩
  | .local _ .vmem, ⟨0, _⟩ => ⟨S1x8x512x512, .f32⟩
  | .local _ .vmem, ⟨1, _⟩ => ⟨S1x8x512x512, .f32⟩
  | .local _ .vmem, ⟨2, _⟩ => ⟨S8x1x1, .f32⟩
  | .local _ .vmem, ⟨3, _⟩ => ⟨S8x1x1, .f32⟩
  | .local _ .vmem, ⟨4, _⟩ => ⟨S1x8x512x512, .f32⟩
  | .local _ .vmem, ⟨5, _⟩ => ⟨S1x8x512x512, .f32⟩
  | _, _ => ⟨S1x256x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S256_S256x1x1 : S256.ShapeCasts S256x1x1
  inb_S1x8x512x512_S1x8x512x512_0_0_0_0 : ∀ a, (![0, 0, 0, 0] : Fin 4 → Nat) a + S1x8x512x512.size a ≤ S1x8x512x512.size a
  h_S1x8x512x512 : 0 < S1x8x512x512.numel
  reduces_S1x8x512x512_S1x8 : S1x8x512x512.Reduces [2, 3] S1x8
  shapeCasts_S1x8_S1x8x1x1 : S1x8.ShapeCasts S1x8x1x1
  broadcasts_S1x8x1x1_S1x8x512x512 : S1x8x1x1.Broadcasts S1x8x512x512
  inb_S8x1x1_S8x1x1_0_0_0 : ∀ a, (![0, 0, 0] : Fin 3 → Nat) a + S8x1x1.size a ≤ S8x1x1.size a
  h_S8x1x1 : 0 < S8x1x1.numel
  shapeCasts_S8x1x1_S8x1x1 : S8x1x1.ShapeCasts S8x1x1
  shapeCasts_S8x1x1_S1x8x1x1 : S8x1x1.ShapeCasts S1x8x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x512x512.size a ≤ S1x256x512x512.size a
  hwx0_0 : ∀ i : grid0.Coords, EltTy.bits .f32 = 32 ∨ (Rect.block (s := S1x256x512x512) S1x8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x1.size a ≤ S256x1x1.size a
  hwx0_1 : ∀ i : grid0.Coords, EltTy.bits .f32 = 32 ∨ (Rect.block (s := S256x1x1) S8x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x512x512.size a ≤ S1x256x512x512.size a
  hwx0_2 : ∀ i : grid0.Coords, EltTy.bits .f32 = 32 ∨ (Rect.block (s := S1x256x512x512) S1x8x512x512.size (cc0_transform_2 i) (hinb0_2 i)).WholeWords (EltTy.packing .f32)

variable [Facts₀]

abbrev win0_0 : Pipeline.Window sig grid0 :=
  Pipeline.Window.ofSpec (Memref.whole main_arg0) S1x8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x256x512x512 : Shape := ⟨4, ![1, 256, 512, 512]⟩
abbrev S256 : Shape := ⟨1, ![256]⟩
abbrev S_ : Shape := ⟨0, ![]⟩
abbrev S1x256 : Shape := ⟨2, ![1, 256]⟩
abbrev S1x256x1x1 : Shape := ⟨4, ![1, 256, 1, 1]⟩

abbrev nBuf : Space → Nat
  | .hbm => 44
  | .vmem => 0
  | .smem => 0
  | _ => 0

abbrev bufTy : (tb : Table) → Fin (tcTables nBuf tb) → BufTy
  | .hbm, ⟨0, _⟩ => ⟨S1x256x512x512, .f32⟩
  | .hbm, ⟨1, _⟩ => ⟨S256, .f32⟩
  | .hbm, ⟨2, _⟩ => ⟨S256, .f32⟩
  | .hbm, ⟨3, _⟩ => ⟨S_, .f32⟩
  | .hbm, ⟨4, _⟩ => ⟨S1x256, .f32⟩
  | .hbm, ⟨5, _⟩ => ⟨S1x256x1x1, .f32⟩
  | .hbm, ⟨6, _⟩ => ⟨S_, .f32⟩
  | .hbm, ⟨7, _⟩ => ⟨S1x256x1x1, .f32⟩
  | .hbm, ⟨8, _⟩ => ⟨S1x256x1x1, .f32⟩
  | .hbm, ⟨9, _⟩ => ⟨S_, .i32⟩
  | .hbm, ⟨10, _⟩ => ⟨S_, .f32⟩
  | .hbm, ⟨11, _⟩ => ⟨S1x256, .f32⟩
  | .hbm, ⟨12, _⟩ => ⟨S1x256x1x1, .f32⟩
  | .hbm, ⟨13, _⟩ => ⟨S_, .f32⟩
  | .hbm, ⟨14, _⟩ => ⟨S1x256x1x1, .f32⟩
  | .hbm, ⟨15, _⟩ => ⟨S1x256x1x1, .f32⟩
  | .hbm, ⟨16, _⟩ => ⟨S1x256x512x512, .f32⟩
  | .hbm, ⟨17, _⟩ => ⟨S1x256x512x512, .f32⟩
  | .hbm, ⟨18, _⟩ => ⟨S1x256x512x512, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x256, .f32⟩
  | .hbm, ⟨24, _⟩ => ⟨S1x256x1x1, .f32⟩
  | .hbm, ⟨25, _⟩ => ⟨S1x256x1x1, .f32⟩
  | .hbm, ⟨26, _⟩ => ⟨S1x256x1x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S1x256x1x1, .f32⟩
  | .hbm, ⟨32, _⟩ => ⟨S1x256x1x1, .f32⟩
  | .hbm, ⟨33, _⟩ => ⟨S1x256x512x512, .f32⟩
  | .hbm, ⟨34, _⟩ => ⟨S1x256x512x512, .f32⟩
  | .hbm, ⟨35, _⟩ => ⟨S_, .f32⟩
  | .hbm, ⟨36, _⟩ => ⟨S1x256x1x1, .f32⟩
  | .hbm, ⟨37, _⟩ => ⟨S1x256x1x1, .f32⟩
  | .hbm, ⟨38, _⟩ => ⟨S1x256x1x1, .f32⟩
  | .hbm, ⟨39, _⟩ => ⟨S1x256x512x512, .f32⟩
  | .hbm, ⟨40, _⟩ => ⟨S1x256x512x512, .f32⟩
  | .hbm, ⟨41, _⟩ => ⟨S1x256x1x1, .f32⟩
  | .hbm, ⟨42, _⟩ => ⟨S1x256x512x512, .f32⟩
  | .hbm, ⟨43, _⟩ => ⟨S1x256x512x512, .f32⟩
  | _, _ => ⟨S1x256x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩

abbrev nD : Nat := 1
abbrev τ : Topo := Topo.v7x

variable {F : FTy → Type} [FloatOps F]

class Facts₀ : Prop where
  reducesTo_S1x256x512x512_S1x256_d2_3 : S1x256x512x512.ReducesTo [2, 3] S1x256
  h_S_ : 0 < S_.numel
  bcast_S1x256_S1x256x1x1_0_1 : S1x256.BroadcastsInDim S1x256x1x1 (![0, 1] : Fin 2 → Fin S1x256x1x1.rank)
  bcast_S_S1x256x1x1 : S_.BroadcastsInDim S1x256x1x1 (![] : Fin 0 → Fin S1x256x1x1.rank)
  bcast_S1x256x1x1_S1x256x512x512_0_1_2_3 : S1x256x1x1.BroadcastsInDim S1x256x512x512 (![0, 1, 2, 3] : Fin 4 → Fin S1x256x512x512.rank)
  bcast_S256_S1x256x1x1_1 : S256.BroadcastsInDim S1x256x1x1 (![1] : Fin 1 → Fin S1x256x1x1.rank)

variable [Facts₀]

class Facts : Prop extends Facts₀ where

variable [Facts]
-- ==== Proof.Spec.lean ====
/-
  Per-channel normalization with the unbiased variance, as ONE function of the arrays.

  The input is an array x[0, k, h, w] of 256 channels of 512 × 512 entries, and a per-channel shift b[k]. With
    mean k  = (Σ over the channel's entries of x) / 262144,
    dev i   = x i - mean (channel of i),
    var k   = (Σ over the channel's entries of dev²) / 262143,
  the result is  G i = dev i · (var k + ε)^(-1/2) + b k,  k the channel of i.

  Two spellings of it meet here. One multiplies by the reciprocal square root; the other divides by the square root.
  On the extended reals these agree wherever the radicand is positive (a positive real, or +∞): and it always is,
  because a square is never negative, at the infinities either, so the variance is never negative and ε is a positive
  real. No finiteness of the input is used. One spelling writes the divisor 262143 as a literal, the other as
  262144 minus the integer one: the same real number.
-/
import Idealize.ShloMosaic.PureOps.Ideal
import Idealize.ShloMosaic.PureOps.Ideal.Laws
import Idealize.ShloMosaic.Lib.ValueIdx

noncomputable section

namespace Cert.ChanNorm

open Idealize.ShloMosaic

/-- The array's shape: one image of 256 channels, each 512 × 512. -/
abbrev SX : Shape := ⟨4, ![1, 256, 512, 512]⟩

/-- The channel an entry belongs to. -/
def chan (i : SX.Idx) : Fin 256 := ⟨(i 1).val, (i 1).isLt⟩

/-- The entries of channel `k`. -/
def fiber (k : Fin 256) : Finset SX.Idx := Finset.univ.filter fun i => chan i = k

/-- The three float literals both programs spell, as the extended reals their patterns denote. -/
def nAll : EReal := Ideal.ofBits .f32 0x48800000#32
def nLess : EReal := Ideal.ofBits .f32 0x487FFFC0#32
def eps : EReal := Ideal.ofBits .f32 0x3727C5AC#32

theorem nAll_eq : nAll = ((262144 : ℝ) : EReal) := by
  unfold nAll; simp [Ideal.ofBits, Ideal.ieee, -EReal.coe_mul]; norm_num

theorem nLess_eq : nLess = ((262143 : ℝ) : EReal) := by
  unfold nLess; simp [Ideal.ofBits, Ideal.ieee, -EReal.coe_mul]; norm_num

/-- ε is a positive real (the binary value nearest 1e-5). -/
theorem eps_eq : eps = ((10995116 / 1099511627776 : ℝ) : EReal) := by
  unfold eps; simp [Ideal.ofBits, Ideal.ieee, -EReal.coe_mul]; norm_num

theorem eps_pos : 0 < eps := by
  rw [eps_eq]; exact EReal.coe_pos.mpr (by norm_num)

/-- `262144 - 1 = 262143`: the divisor written as a difference is the divisor written as a literal. -/
theorem nAll_sub_one : nAll - (((1#32 : BitVec 32).toInt : ℝ) : EReal) = nLess := by
  rw [nAll_eq, nLess_eq, show (1#32 : BitVec 32).toInt = 1 from by decide, ← EReal.coe_sub]
  norm_num

theorem nLess_pos : 0 < nLess := by
  rw [nLess_eq]; exact EReal.coe_pos.mpr (by norm_num)

variable (X : SX.Idx → EReal) (b : Fin 256 → EReal)

/-- A channel's mean. -/
def mean (k : Fin 256) : EReal := Ideal.div (∑ i ∈ fiber k, X i) nAll

/-- An entry's deviation from its channel's mean. -/
def dev (i : SX.Idx) : EReal := X i - mean X (chan i)

/-- A channel's unbiased variance. -/
def var (k : Fin 256) : EReal := Ideal.div (∑ i ∈ fiber k, dev X i * dev X i) nLess

/-- The normalized, shifted array. -/
def G (i : SX.Idx) : EReal := dev X i * Ideal.rsqrt (var X (chan i) + eps) + b (chan i)

/-- A square is never negative, at the infinities either. -/
theorem mul_self_nonneg (a : EReal) : 0 ≤ a * a := by
  induction a using EReal.rec with
  | bot => rw [EReal.bot_mul_bot]; exact le_top
  | coe r => rw [← EReal.coe_mul]; exact EReal.coe_nonneg.mpr (_root_.mul_self_nonneg r)
  | top => rw [EReal.top_mul_top]; exact le_top

/-- So the variance is never negative … -/
theorem var_nonneg (k : Fin 256) : 0 ≤ var X k := by
  unfold var
  rw [nLess_eq, Ideal.div_coe (by norm_num)]
  exact mul_nonneg (Finset.sum_nonneg fun i _ => mul_self_nonneg _) (EReal.coe_nonneg.mpr (by norm_num))

/-- … and the radicand is positive. -/
theorem radicand_pos (k : Fin 256) : 0 < var X k + eps :=
  lt_of_lt_of_le eps_pos (le_add_of_nonneg_left (var_nonneg X k))

/-- Dividing by the square root is multiplying by the reciprocal square root, at a positive radicand (+∞ included). -/
theorem div_sqrt_eq_mul_rsqrt (d v : EReal) (hv : 0 < v) : Ideal.div d (Ideal.sqrt v) = d * Ideal.rsqrt v := by
  induction v using EReal.rec with
  | bot => exact absurd hv not_lt_bot
  | coe r =>
    have hr : 0 < r := EReal.coe_pos.mp hv
    have hs : Real.sqrt r ≠ 0 := (Real.sqrt_pos.mpr hr).ne'
    rw [Ideal.sqrt_coe, if_neg (not_lt.mpr hr.le), Ideal.rsqrt_coe, if_neg (not_lt.mpr hr.le), if_neg hr.ne',
      Ideal.div_coe hs, one_div]
  | top => rw [Ideal.sqrt_top, Ideal.rsqrt_top, Ideal.div, if_neg EReal.top_ne_zero, EReal.inv_top]

/-- The spelling with a quotient by the square root is `G`. -/
theorem quotient_eq_G (i : SX.Idx) :
    Ideal.div (dev X i) (Ideal.sqrt (var X (chan i) + eps)) + b (chan i) = G X b i := by
  unfold G; rw [div_sqrt_eq_mul_rsqrt _ _ (radicand_pos X (chan i))]

end Cert.ChanNorm

end
-- ==== Proof.Fibers.lean ====
/-
  A reduction over the two spatial axes is a sum over a channel's entries.

  Both programs sum over axes 2 and 3 of a rank-4 array: the reference over the whole array [1, 256, 512, 512] into
  [1, 256], the kernel over one block of eight channels [1, 8, 512, 512] into [1, 8]. At the ideal values each is the
  sum of the source entries that drop to the reduced index. For the whole array those entries are exactly the channel's
  (`filter_drop_eq_fiber`). For the block at grid point t, whose entry y sits at array entry (0, 8t + y₁, y₂, y₃)
  (`blkIdx`), the block entries that drop to (0, q) correspond one to one to the entries of channel 8t + q
  (`sum_block`): so the kernel's block sums are the reference's channel sums.
-/
import proofs.«169887_j80616536146731_1_alg».proof.Proof.Spec
import Idealize.ShloMosaic.PureOps.Reduce

noncomputable section

namespace Cert.ChanNorm

open Idealize.ShloMosaic Idealize.ShloMosaic.ValueIdx

/-- The per-channel shape of the whole array's reduction, and the block's two shapes. -/
abbrev SC : Shape := ⟨2, ![1, 256]⟩
abbrev SBlk : Shape := ⟨4, ![1, 8, 512, 512]⟩
abbrev SBC : Shape := ⟨2, ![1, 8]⟩

/-- The source entries that drop to channel `k`'s reduced index are the channel's entries. -/
theorem filter_drop_eq_fiber (h : SX.ReducesTo [2, 3] SC) (k : Fin 256) :
    (Finset.univ.filter fun i : SX.Idx => h.drop i = ix2 (0 : Fin 1) k) = fiber k := by
  unfold fiber
  refine Finset.filter_congr fun i _ => ?_
  have e0 : (h.drop i 0 : Nat) = i 0 := Shape.ReducesTo.drop_apply_val_of_eq h i 0 0
  have e1 : (h.drop i 1 : Nat) = i 1 := Shape.ReducesTo.drop_apply_val_of_eq h i 1 1
  constructor
  · intro hd
    apply Fin.ext
    show (i 1).val = k.val
    rw [← e1, hd]
  · intro hc
    have hk : (i 1).val = k.val := congrArg Fin.val hc
    funext a; apply Fin.ext
    match a with
    | ⟨0, _⟩ =>
      show (h.drop i 0 : Nat) = 0
      have : (i 0).val < 1 := (i 0).isLt
      omega
    | ⟨1, _⟩ =>
      show (h.drop i 1 : Nat) = k.val
      omega

/-- Where entry `y` of the block at grid point `t` sits in the array: channel `8t + y₁`, same spatial position. -/
def blkIdx (t : Fin 32) (y : SBlk.Idx) : SX.Idx := fun a => match a with
  | ⟨0, _⟩ => ⟨0, by show 0 < 1; omega⟩
  | ⟨1, _⟩ => ⟨8 * t.val + (y 1).val, by have h1 : (y 1).val < 8 := (y 1).isLt; have := t.isLt; show _ < 256; omega⟩
  | ⟨2, _⟩ => ⟨(y 2).val, (y 2).isLt⟩
  | ⟨3, _⟩ => ⟨(y 3).val, (y 3).isLt⟩

/-- Channel `q` of the block at `t` is channel `8t + q` of the array. -/
def blkChan (t : Fin 32) (q : Fin 8) : Fin 256 := ⟨8 * t.val + q.val, by have := t.isLt; have := q.isLt; omega⟩

theorem chan_blkIdx (t : Fin 32) (y : SBlk.Idx) (q : Fin 8) (hq : (y 1).val = q.val) : chan (blkIdx t y) = blkChan t q := by
  apply Fin.ext
  show 8 * t.val + (y 1).val = 8 * t.val + q.val
  rw [hq]

/-- The array entry's place in the block that holds it. -/
def unblk (i : SX.Idx) : SBlk.Idx := fun a => match a with
  | ⟨0, _⟩ => ⟨0, by show 0 < 1; omega⟩
  | ⟨1, _⟩ => ⟨(i 1).val % 8, Nat.mod_lt _ (by norm_num)⟩
  | ⟨2, _⟩ => ⟨(i 2).val, (i 2).isLt⟩
  | ⟨3, _⟩ => ⟨(i 3).val, (i 3).isLt⟩

/-- A sum over the block entries that drop to block channel `q` is the sum over the entries of array channel `8t + q`. -/
theorem sum_block (h : SBlk.Reduces [2, 3] SBC) (t : Fin 32) (q : Fin 8) (f : SX.Idx → EReal) :
    (∑ y ∈ Finset.univ.filter (fun y : SBlk.Idx => h.drop y = ix2 (0 : Fin 1) q), f (blkIdx t y))
      = ∑ i ∈ fiber (blkChan t q), f i := by
  have e1 : ∀ y : SBlk.Idx, (h.drop y 1 : Nat) = y 1 := fun y => Shape.Reduces.drop_apply_val_of_eq h y 1 1
  have e0 : ∀ y : SBlk.Idx, (h.drop y 0 : Nat) = y 0 := fun y => Shape.Reduces.drop_apply_val_of_eq h y 0 0
  have hq : q.val < 8 := q.isLt
  have ht : t.val < 32 := t.isLt
  refine Finset.sum_nbij' (blkIdx t) unblk ?_ ?_ ?_ ?_ (fun _ _ => rfl)
  · intro y hy
    rw [Finset.mem_filter] at hy
    have hy1 : (y 1).val = q.val := by rw [← e1 y, hy.2]
    unfold fiber; rw [Finset.mem_filter]
    exact ⟨Finset.mem_univ _, chan_blkIdx t y q hy1⟩
  · intro i hi
    unfold fiber at hi; rw [Finset.mem_filter] at hi
    have hi1 : (i 1).val = 8 * t.val + q.val := congrArg Fin.val hi.2
    rw [Finset.mem_filter]
    refine ⟨Finset.mem_univ _, ?_⟩
    funext a; apply Fin.ext
    match a with
    | ⟨0, _⟩ => show (h.drop (unblk i) 0 : Nat) = 0; rw [e0]; rfl
    | ⟨1, _⟩ => show (h.drop (unblk i) 1 : Nat) = q.val; rw [e1]; show (i 1).val % 8 = q.val; omega
  · intro y hy
    rw [Finset.mem_filter] at hy
    have hy1 : (y 1).val = q.val := by rw [← e1 y, hy.2]
    funext a; apply Fin.ext
    match a with
    | ⟨0, _⟩ => show 0 = (y 0).val; have : (y 0).val < 1 := (y 0).isLt; omega
    | ⟨1, _⟩ => show (8 * t.val + (y 1).val) % 8 = (y 1).val; omega
    | ⟨2, _⟩ => rfl
    | ⟨3, _⟩ => rfl
  · intro i hi
    unfold fiber at hi; rw [Finset.mem_filter] at hi
    have hi1 : (i 1).val = 8 * t.val + q.val := congrArg Fin.val hi.2
    funext a; apply Fin.ext
    match a with
    | ⟨0, _⟩ => show 0 = (i 0).val; have : (i 0).val < 1 := (i 0).isLt; omega
    | ⟨1, _⟩ => show 8 * t.val + (i 1).val % 8 = (i 1).val; omega
    | ⟨2, _⟩ => rfl
    | ⟨3, _⟩ => rfl

end Cert.ChanNorm

end
-- ==== Proof.KernelValue.lean ====
/-
  The kernel's result array is the normalized array `G`.

  Grid point t stages the block of channels 8t … 8t + 7 of the input and the eight matching shifts, and writes back the
  block of the output at the same place. Inside the block the body sums each channel's 512 × 512 entries, divides by
  262144, subtracts that mean, sums the squared deviations, divides by 262143, adds ε, takes the reciprocal square root,
  multiplies and adds the shift. A block channel's entries are exactly the array channel's entries (`sum_block`), so
  the block sums are the channel sums and the block the body leaves is `G` read through the block (`block_eq`,
  `flushed_eq`). The thirty-two blocks tile the array (entry i lies in the block of point i₁ / 8), so the array ends
  holding `G` everywhere (`final`, `run`). The shift array the kernel stages is the host's reshape of the [256] shift
  to [256, 1, 1], which reads the shift at the channel (`shiftOf`).
-/
import proofs.«169887_j80616536146731_1_alg».proof.Proof.Gen.KernelIdeal.Value
import proofs.«169887_j80616536146731_1_alg».proof.Proof.Fibers
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Value Cert.ChanNorm
open Idealize.ShloMosaic Idealize.ShloMosaic.ValueIdx Idealize.ShloMosaic.TcCoe Idealize.SL.Sem
open Idealize.ShloMosaic.Pipeline (Dat)

/-! ## One block, over variables -/

section Block

variable (X : SX.Idx → EReal) (b : Fin 256 → EReal) (t : Fin 32)

/-- The block channel of a block entry. -/
def bq (y : S1x8x512x512.Idx) : Fin 8 := ⟨(y 1).val, (y 1).isLt⟩

/-- A block's sums over the two spatial axes, per block channel. -/
abbrev bsum (Y : FVec Ideal S1x8x512x512 .f32) : FVec Ideal S1x8 .f32 :=
  multiReduction .add [2, 3] S1x8 Y 0x00000000#32 reduces_S1x8x512x512_S1x8 (.inl rfl) rfl

/-- The block's per-channel means, as a column. -/
abbrev bmeanCol (P0 : FVec Ideal S1x8x512x512 .f32) : FVec Ideal S1x8x1x1 .f32 :=
  divf (shapeCast S1x8x1x1 (bsum P0) shapeCasts_S1x8_S1x8x1x1) (broadcast S1x8x1x1 (Scalar.ofBits .f32 0x48800000#32))

/-- The block minus its means. -/
abbrev bcentered (P0 : FVec Ideal S1x8x512x512 .f32) : FVec Ideal S1x8x512x512 .f32 :=
  subf P0 (broadcastTo S1x8x512x512 (bmeanCol P0) broadcasts_S1x8x1x1_S1x8x512x512)

/-- A block sum at block channel `q`, of block values that are `f` of the array entry under them, is the sum of `f` over
    array channel `8t + q`. -/
theorem blockSum_eq (Y : FVec Ideal S1x8x512x512 .f32) (f : SX.Idx → EReal) (hY : ∀ y, Y y = f (blkIdx t y)) (q : Fin 8) :
    bsum Y (ix2 (0 : Fin 1) q) = ∑ i ∈ fiber (blkChan t q), f i := by
  show ∑ y ∈ Finset.univ.filter (fun y => reduces_S1x8x512x512_S1x8.drop y = ix2 (0 : Fin 1) q), Y y = _
  rw [← sum_block reduces_S1x8x512x512_S1x8 t q f]
  exact Finset.sum_congr rfl fun y _ => hY y

/-- The block's mean column, spread over the block, reads the array channel's mean. -/
theorem bmean_apply (P0 : FVec Ideal S1x8x512x512 .f32) (h0 : ∀ y, P0 y = X (blkIdx t y)) (y : S1x8x512x512.Idx) :
    broadcastTo S1x8x512x512 (bmeanCol P0) broadcasts_S1x8x1x1_S1x8x512x512 y = mean X (blkChan t (bq y)) := by
  have hy1 : (y 1).val < 8 := (y 1).isLt
  refine (broadcastTo_apply _ _ y (ix4 (0 : Fin 1) (bq y) (0 : Fin 1) (0 : Fin 1))
    (fun a => match a with | ⟨0, _⟩ => rfl | ⟨1, _⟩ => rfl | ⟨2, _⟩ => rfl | ⟨3, _⟩ => rfl)).trans ?_
  show Ideal.div (shapeCast S1x8x1x1 (bsum P0) shapeCasts_S1x8_S1x8x1x1 (ix4 (0 : Fin 1) (bq y) (0 : Fin 1) (0 : Fin 1)))
      (Ideal.ofBits .f32 0x48800000#32) = _
  rw [shapeCast_apply (bsum P0) shapeCasts_S1x8_S1x8x1x1 (ix4 (0 : Fin 1) (bq y) (0 : Fin 1) (0 : Fin 1)) (ix2 (0 : Fin 1) (bq y))
    (by rw [Shape.rowMajor_val_two, Shape.rowMajor_val_four]; show 0 * 8 + (y 1).val = ((0 * 8 + (y 1).val) * 1 + 0) * 1 + 0; omega),
    blockSum_eq t P0 X h0]
  rfl

/-- So the centered block holds the deviations of the array entries under it. -/
theorem bcentered_apply (P0 : FVec Ideal S1x8x512x512 .f32) (h0 : ∀ y, P0 y = X (blkIdx t y)) (y : S1x8x512x512.Idx) :
    bcentered P0 y = dev X (blkIdx t y) := by
  show P0 y - broadcastTo S1x8x512x512 (bmeanCol P0) broadcasts_S1x8x1x1_S1x8x512x512 y = _
  rw [bmean_apply X t P0 h0 y, h0]
  unfold dev
  rw [chan_blkIdx t y (bq y) rfl]

/-- THE BLOCK the body leaves, entry by entry, is `G` at the array entry under it. -/
theorem block_eq (P0 : FVec Ideal S1x8x512x512 .f32) (P1 : FVec Ideal S8x1x1 .f32)
    (h0 : ∀ y, P0 y = X (blkIdx t y)) (h1 : ∀ z : S8x1x1.Idx, P1 z = b (blkChan t ⟨(z 0).val, (z 0).isLt⟩))
    (y : S1x8x512x512.Idx) : E2 (F := Ideal) P0 P1 y = G X b (blkIdx t y) := by
  have hy0 : (y 0).val < 1 := (y 0).isLt
  have i0 : ix2_0 y = y := funext fun a => Fin.ext (match a with
    | ⟨0, _⟩ => (by show 0 = (y 0).val; omega) | ⟨1, _⟩ => rfl | ⟨2, _⟩ => rfl | ⟨3, _⟩ => rfl)
  have i1 : ix2_1 y = ix2 (0 : Fin 1) (bq y) := funext fun a => Fin.ext (match a with | ⟨0, _⟩ => rfl | ⟨1, _⟩ => rfl)
  have i2 : ix2_2 y = ix2 (0 : Fin 1) (bq y) := funext fun a => Fin.ext (match a with | ⟨0, _⟩ => rfl | ⟨1, _⟩ => rfl)
  have i3 : P1 (ix2_3 y) = b (blkChan t (bq y)) := by rw [h1]; rfl
  have hc : chan (blkIdx t y) = blkChan t (bq y) := chan_blkIdx t y (bq y) rfl
  have hd : dev X (blkIdx t y) = X (blkIdx t y) - mean X (blkChan t (bq y)) := by unfold dev; rw [hc]
  show (P0 (ix2_0 y) - Ideal.div (bsum P0 (ix2_1 y)) (Ideal.ofBits .f32 0x48800000#32))
      * Ideal.rsqrt (Ideal.div (bsum (mulf (bcentered P0) (bcentered P0)) (ix2_2 y)) (Ideal.ofBits .f32 0x487FFFC0#32)
          + Ideal.ofBits .f32 0x3727C5AC#32)
      + P1 (ix2_3 y) = dev X (blkIdx t y) * Ideal.rsqrt (var X (chan (blkIdx t y)) + eps) + b (chan (blkIdx t y))
  rw [i0, i1, i2, i3, h0, hd, hc, blockSum_eq t P0 X h0,
    blockSum_eq t (mulf (bcentered P0) (bcentered P0)) (fun i => dev X i * dev X i)
      (fun y' => by show bcentered P0 y' * bcentered P0 y' = _; rw [bcentered_apply X t P0 h0 y'])]
  rfl

end Block

/-! ## The pipeline's blocks are those blocks -/

variable (m : (ℓ : Loc nD τ sig) → Buf (Elt Ideal) ℓ) (ρ : Dev nD → PrngReg)

/-- The input array as the region finds it, and the shift per channel read off the staged [256, 1, 1] array. -/
abbrev xarr (c : Dev nD) : SX.Idx → EReal := V m c main_arg0
abbrev sarr (c : Dev nD) : S256x1x1.Idx → EReal := V m c main_v0
abbrev shiftOf (c : Dev nD) : Fin 256 → EReal := fun k => sarr m c (ix3 k (0 : Fin 1) (0 : Fin 1))

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The printed index maps over the grid: the input block, the shift block and the output block of point `t` are all block
    `t` along the channel axis and block 0 along every other. -/
theorem idx_facts : ∀ t : Fin cfg0.N,
    win0_0.index t (0 : Fin 4) = 0 ∧ win0_0.index t (1 : Fin 4) = t.val ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 4) = 0 ∧ win0_2.index t (1 : Fin 4) = t.val ∧ win0_2.index t (2 : Fin 4) = 0 ∧ win0_2.index t (3 : Fin 4) = 0 :=
  (by decide +kernel : ∀ t : Fin grid0.N, _)

/-- A grid point as a number below 32. -/
def pt (t : Fin cfg0.N) : Fin 32 := ⟨t.val, lt_of_lt_of_eq t.isLt N_0⟩

/-- The output block's entry `j` at point `t` sits at array entry `blkIdx t j`. -/
theorem emb_out (t : Fin cfg0.N) (j : S1x8x512x512.Idx) : ((cfg0.win 2).blk t).view.emb j = blkIdx (pt t) j := by
  obtain ⟨-, -, -, -, -, -, -, e0, e1, e2, e3⟩ := idx_facts t
  have h0 : (j 0).val < 1 := (j 0).isLt
  funext a; apply Fin.ext
  match a with
  | ⟨0, _⟩ => show win0_2.index t (0 : Fin 4) * 1 + 1 * (j 0).val = 0; omega
  | ⟨1, _⟩ => show win0_2.index t (1 : Fin 4) * 8 + 1 * (j 1).val = 8 * t.val + (j 1).val; omega
  | ⟨2, _⟩ => show win0_2.index t (2 : Fin 4) * 512 + 1 * (j 2).val = (j 2).val; omega
  | ⟨3, _⟩ => show win0_2.index t (3 : Fin 4) * 512 + 1 * (j 3).val = (j 3).val; omega

/-- The input block at point `t` holds the array entries under it. -/
theorem iblk0_apply (c : Dev nD) (t : Fin cfg0.N) (y : S1x8x512x512.Idx) :
    (iblk m c 0 t : S1x8x512x512.Idx → EReal) y = xarr m c (blkIdx (pt t) y) := by
  obtain ⟨e0, e1, e2, e3, -⟩ := idx_facts t
  have h0 : (y 0).val < 1 := (y 0).isLt
  show V m c main_arg0 (((cfg0.win 0).blk t).view.emb y) = V m c main_arg0 (blkIdx (pt t) y)
  congr 1
  funext a; apply Fin.ext
  match a with
  | ⟨0, _⟩ => show win0_0.index t (0 : Fin 4) * 1 + 1 * (y 0).val = 0; omega
  | ⟨1, _⟩ => show win0_0.index t (1 : Fin 4) * 8 + 1 * (y 1).val = 8 * t.val + (y 1).val; omega
  | ⟨2, _⟩ => show win0_0.index t (2 : Fin 4) * 512 + 1 * (y 2).val = (y 2).val; omega
  | ⟨3, _⟩ => show win0_0.index t (3 : Fin 4) * 512 + 1 * (y 3).val = (y 3).val; omega

/-- The shift block at point `t` holds the shifts of channels 8t … 8t + 7. -/
theorem iblk1_apply (c : Dev nD) (t : Fin cfg0.N) (z : S8x1x1.Idx) :
    (iblk m c 1 t : S8x1x1.Idx → EReal) z = shiftOf m c (blkChan (pt t) ⟨(z 0).val, (z 0).isLt⟩) := by
  obtain ⟨-, -, -, -, e0, e1, e2, -⟩ := idx_facts t
  have h1 : (z 1).val < 1 := (z 1).isLt
  have h2 : (z 2).val < 1 := (z 2).isLt
  show V m c main_v0 (((cfg0.win 1).blk t).view.emb z) = V m c main_v0 (ix3 (blkChan (pt t) ⟨(z 0).val, (z 0).isLt⟩) (0 : Fin 1) (0 : Fin 1))
  congr 1
  funext a; apply Fin.ext
  match a with
  | ⟨0, _⟩ => show win0_1.index t (0 : Fin 3) * 8 + 1 * (z 0).val = 8 * t.val + (z 0).val; omega
  | ⟨1, _⟩ => show win0_1.index t (1 : Fin 3) * 1 + 1 * (z 1).val = 0; omega
  | ⟨2, _⟩ => show win0_1.index t (2 : Fin 3) * 1 + 1 * (z 2).val = 0; omega

/-- WHAT POINT `t` WRITES BACK is block `t` of `G` of the input array and the staged shifts. -/
theorem flushed_eq (c : Dev nD) (t : Fin cfg0.N) :
    (dats m 0 c).flushed 2 t = ((cfg0.win 2).blk t).view.read (Elt Ideal) (G (xarr m c) (shiftOf m c)) := by
  rw [flushed2]
  unfold out0_2
  simp only [View.ld_unit_zero (S := S1x8x512x512) hz4, View.ld_unit_zero (S := S8x1x1) hz3]
  funext j
  refine ((canon2_eq (F := Ideal) _ _ j).trans
    (block_eq (xarr m c) (shiftOf m c) (pt t) _ _ (iblk0_apply m c t) (iblk1_apply m c t) j)).trans ?_
  show G (xarr m c) (shiftOf m c) (blkIdx (pt t) j) = G (xarr m c) (shiftOf m c) (((cfg0.win 2).blk t).view.emb j)
  rw [emb_out t j]

/-! ## The blocks tile the array -/

/-- An array entry is in point `t`'s output block iff each coordinate is in the block's range on its axis. -/
theorem mem_blk (t : Fin cfg0.N) (i : S1x256x512x512.Idx) :
    i ∈ ((cfg0.win 2).blk t).view.set ↔ ∀ a : Fin 4, win0_2.index t a * S1x8x512x512.size a ≤ (i a).val
      ∧ (i a).val < win0_2.index t a * S1x8x512x512.size a + S1x8x512x512.size a := by
  show i ∈ ((View.whole main_v1).slice (win0_2.rect t)).set ↔ _
  rw [View.set_slice_whole, Rect.mem_set_unit]
  exact Iff.rfl

/-- Every array entry is in the output block of the point its channel's block of eight names. -/
theorem cover (i : S1x256x512x512.Idx) : ∃ t : Fin cfg0.N, (cfg0.win 2).flush t = true ∧ i ∈ ((cfg0.win 2).blk t).view.set := by
  have hi0 : (i 0).val < 1 := (i 0).isLt
  have hi1 : (i 1).val < 256 := (i 1).isLt
  have hi2 : (i 2).val < 512 := (i 2).isLt
  have hi3 : (i 3).val < 512 := (i 3).isLt
  let t : Fin cfg0.N := ⟨(i 1).val / 8, by rw [show cfg0.N = 32 from N_0]; omega⟩
  have htv : t.val = (i 1).val / 8 := rfl
  obtain ⟨-, -, -, -, -, -, -, e0, e1, e2, e3⟩ := idx_facts t
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 512 ≤ (i 2).val ∧ (i 2).val < win0_2.index t (2 : Fin 4) * 512 + 512; omega
  | ⟨3, _⟩ => show win0_2.index t (3 : Fin 4) * 512 ≤ (i 3).val ∧ (i 3).val < win0_2.index t (3 : Fin 4) * 512 + 512; omega

/-- THE ARRAY after the run is `G` of the input array and the staged shifts. -/
theorem final (c : Dev nD) : (dats m 0 c).arrAt 2 cfg0.N = G (xarr m c) (shiftOf m c) :=
  (dats m 0 c).arrAt_eq_of_cover 2 (G (xarr m c) (shiftOf m c)) (fun t _ => flushed_eq m c t) cover

/-! ## In terms of the arguments -/

/-- The staged shift array is the reshape of the shift argument, which reads the shift at the channel. -/
theorem shiftOf_eq (c : Dev nD) (k : Fin 256) :
    shiftOf m c k = (m ((c : Thread nD τ).loc main_arg2) : S256.Idx → EReal) (ix1 k) := by
  have e : sarr m c = shapeCast S256x1x1 (m ((c : Thread nD τ).loc main_arg2) : S256.Idx → EReal) shapeCasts_S256_S256x1x1 := by
    dsimp only [sarr, Gen.V, Gen.hostOps0]; after_results; rfl
  show sarr m c (ix3 k (0 : Fin 1) (0 : Fin 1)) = _
  rw [e]
  exact shapeCast_apply _ _ (ix3 k (0 : Fin 1) (0 : Fin 1)) (ix1 k)
    (by rw [Shape.rowMajor_val_one, Shape.rowMajor_val_three]; show k.val = (k.val * 1 + 0) * 1 + 0; omega)

/-- THE RUN, read: the result array at `G` of the first argument and the third, the arguments unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (fun k => (m ((c : Thread nD τ).loc main_arg2) : S256.Idx → EReal) (ix1 k))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨by
      rw [(h c).1, final m c]
      show G (V m c main_arg0) (shiftOf m c) = _
      rw [V_main_arg0 m c, show shiftOf m c = _ from funext (shiftOf_eq m c)],
      (h c).2⟩)
    (run_blocks m ρ)

end Cert.KernelIdeal.KValue

end
-- ==== Proof.RefRun.lean ====
/-
  The reference program's run, read back: what its result buffer holds when it ends, as one pure term of the arguments.

  @main computes, per channel, the mean over the spatial axes, calls the outlined variance function (which recomputes
  the mean, squares the deviations, sums them and divides by `262144 - 1`, selecting that quotient over a NaN
  fallback because the divisor is positive), and then `(x - mean) / sqrt (var + ε) + beta`. Listed here as one
  straight line of forty-one host operations: @main's own seven, the variance function's twenty-one with the three of
  the selection function it calls in their place, then @main's remaining eleven. Each call's operations are stated over
  that call's own buffers, which is what inlining the call means.

  `refOut` is the composed pure term the result buffer ends at, a function of the two argument arrays the result
  depends on; `run` says every weakly fair execution ends with the result there and the arguments unchanged.
-/
import proofs.«169887_j80616536146731_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The per-channel sum over the two spatial axes, from the initial value `v`. -/
abbrev rsum (x : FVec F S1x256x512x512 .f32) (v : FVec F S_ .f32) : FVec F S1x256 .f32 :=
  Host.reduceAdd x v reducesTo_S1x256x512x512_S1x256_d2_3 h_S_

/-- A per-channel value `[1, 256]` laid out as `[1, 256, 1, 1]`. -/
abbrev col (v : FVec F S1x256 .f32) : FVec F S1x256x1x1 .f32 :=
  broadcastInDim S1x256x1x1 ![0, 1] bcast_S1x256_S1x256x1x1_0_1 v

/-- A scalar splat over `[1, 256, 1, 1]`. -/
abbrev splat (v : FVec F S_ .f32) : FVec F S1x256x1x1 .f32 :=
  broadcastInDim S1x256x1x1 ![] bcast_S_S1x256x1x1 v

/-- A per-channel column spread over the whole array. -/
abbrev spread (v : FVec F S1x256x1x1 .f32) : FVec F S1x256x512x512 .f32 :=
  broadcastInDim S1x256x512x512 ![0, 1, 2, 3] bcast_S1x256x1x1_S1x256x512x512_0_1_2_3 v

/-- The per-channel mean, as a column: the sum from zero divided by the splat of `262144`. -/
abbrev meanCol (x : FVec F S1x256x512x512 .f32) : FVec F S1x256x1x1 .f32 :=
  Host.divf (col (rsum x (constant S_ .f32 0x00000000#32))) (splat (constant S_ .f32 0x48800000#32))

/-- The variance function's divisor: `262144` minus the integer one converted to a float. -/
abbrev ddof (F : FTy → Type) [FloatOps F] : FVec F S_ .f32 :=
  subf (constant S_ .f32 0x48800000#32) (sitofp .f32 (constantI S_ 32 1#32))

/-- The variance function's result: the sum of squared deviations over its divisor where the divisor is positive, a NaN elsewhere. -/
abbrev varCol (x : FVec F S1x256x512x512 .f32) : FVec F S1x256x1x1 .f32 :=
  select (broadcastInDim S1x256x1x1 ![] bcast_S_S1x256x1x1 (cmpf .ogt (ddof F) (constant S_ .f32 0x00000000#32)))
    (Host.divf (col (rsum (mulf (subf x (spread (meanCol x))) (subf x (spread (meanCol x)))) (constant S_ .f32 0x00000000#32)))
      (splat (ddof F)))
    (splat (id (constant S_ .f32 0x7FC00000#32)))

/-- What the result buffer ends at: `(x - mean) / sqrt (var + ε) + beta`, every value laid out as the operations lay it out. -/
def refOut (x : FVec F S1x256x512x512 .f32) (beta : FVec F S256 .f32) : FVec F S1x256x512x512 .f32 :=
  addf (Host.divf (subf x (spread (meanCol x)))
      (spread (Host.sqrt (addf (varCol x) (splat (constant S_ .f32 0x3727C5AC#32))))))
    (spread (broadcastInDim S1x256x1x1 ![1] bcast_S256_S1x256x1x1_1 beta))

/-- @main's operations in order, the two calls unfolded over their own buffers. -/
abbrev ops : List (HloOp τ sig (Elt F)) :=
  [ nullary main_cst (constant S_ .f32 0x00000000#32),
    binary main_arg0 main_cst main_v0 ((fun x v => Host.reduceAdd x v reducesTo_S1x256x512x512_S1x256_d2_3 h_S_) : (⟨S1x256x512x512, .f32⟩ : BufTy).Contents (Elt F) → (⟨S_, .f32⟩ : BufTy).Contents (Elt F) → (⟨S1x256, .f32⟩ : BufTy).Contents (Elt F)),
    unary main_v0 main_v1 (broadcastInDim S1x256x1x1 ![0, 1] bcast_S1x256_S1x256x1x1_0_1 : (⟨S1x256, .f32⟩ : BufTy).Contents (Elt F) → (⟨S1x256x1x1, .f32⟩ : BufTy).Contents (Elt F)),
    nullary main_cst_0 (constant S_ .f32 0x48800000#32),
    unary main_cst_0 main_v2 (broadcastInDim S1x256x1x1 ![] bcast_S_S1x256x1x1 : (⟨S_, .f32⟩ : BufTy).Contents (Elt F) → (⟨S1x256x1x1, .f32⟩ : BufTy).Contents (Elt F)),
    binary main_v1 main_v2 main_v3 (Host.divf : (⟨S1x256x1x1, .f32⟩ : BufTy).Contents (Elt F) → (⟨S1x256x1x1, .f32⟩ : BufTy).Contents (Elt F) → (⟨S1x256x1x1, .f32⟩ : BufTy).Contents (Elt F)),
    nullary main_c (constantI S_ 32 1#32),
    TRef.nullary main_call0.cst (constant S_ .f32 0x00000000#32),
    TRef.binary (.of main_arg0) main_call0.cst main_call0.v0 (fun x v => Host.reduceAdd x v reducesTo_S1x256x512x512_S1x256_d2_3 h_S_),
    TRef.unary main_call0.v0 main_call0.v1 (broadcastInDim S1x256x1x1 ![0, 1] bcast_S1x256_S1x256x1x1_0_1),
    TRef.nullary main_call0.cst_0 (constant S_ .f32 0x48800000#32),
    TRef.unary main_call0.cst_0 main_call0.v2 (broadcastInDim S1x256x1x1 ![] bcast_S_S1x256x1x1),
    TRef.binary main_call0.v1 main_call0.v2 main_call0.v3 Host.divf,
    TRef.unary main_call0.v3 main_call0.v4 (broadcastInDim S1x256x512x512 ![0, 1, 2, 3] bcast_S1x256x1x1_S1x256x512x512_0_1_2_3),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x48800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S1x256x512x512_S1x256_d2_3 h_S_),
    TRef.unary main_call0.v9 main_call0.v10 (broadcastInDim S1x256x1x1 ![0, 1] bcast_S1x256_S1x256x1x1_0_1),
    TRef.unary main_call0.v8 main_call0.v11 (broadcastInDim S1x256x1x1 ![] bcast_S_S1x256x1x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x256x1x1 ![] bcast_S_S1x256x1x1),
    TRef.ternary main_call0.v13 main_call0.v12 main_call0.call0.v1 main_call0.call0.v2 (fun p a b => select (broadcastInDim S1x256x1x1 ![] bcast_S_S1x256x1x1 p) a b),
    unary main_v3 main_v5 (broadcastInDim S1x256x512x512 ![0, 1, 2, 3] bcast_S1x256x1x1_S1x256x512x512_0_1_2_3 : (⟨S1x256x1x1, .f32⟩ : BufTy).Contents (Elt F) → (⟨S1x256x512x512, .f32⟩ : BufTy).Contents (Elt F)),
    binary main_arg0 main_v5 main_v6 (subf : (⟨S1x256x512x512, .f32⟩ : BufTy).Contents (Elt F) → (⟨S1x256x512x512, .f32⟩ : BufTy).Contents (Elt F) → (⟨S1x256x512x512, .f32⟩ : BufTy).Contents (Elt F)),
    nullary main_cst_1 (constant S_ .f32 0x3727C5AC#32),
    unary main_cst_1 main_v7 (broadcastInDim S1x256x1x1 ![] bcast_S_S1x256x1x1 : (⟨S_, .f32⟩ : BufTy).Contents (Elt F) → (⟨S1x256x1x1, .f32⟩ : BufTy).Contents (Elt F)),
    binary main_v4 main_v7 main_v8 (addf : (⟨S1x256x1x1, .f32⟩ : BufTy).Contents (Elt F) → (⟨S1x256x1x1, .f32⟩ : BufTy).Contents (Elt F) → (⟨S1x256x1x1, .f32⟩ : BufTy).Contents (Elt F)),
    unary main_v8 main_v9 (Host.sqrt : (⟨S1x256x1x1, .f32⟩ : BufTy).Contents (Elt F) → (⟨S1x256x1x1, .f32⟩ : BufTy).Contents (Elt F)),
    unary main_v9 main_v10 (broadcastInDim S1x256x512x512 ![0, 1, 2, 3] bcast_S1x256x1x1_S1x256x512x512_0_1_2_3 : (⟨S1x256x1x1, .f32⟩ : BufTy).Contents (Elt F) → (⟨S1x256x512x512, .f32⟩ : BufTy).Contents (Elt F)),
    binary main_v6 main_v10 main_v11 (Host.divf : (⟨S1x256x512x512, .f32⟩ : BufTy).Contents (Elt F) → (⟨S1x256x512x512, .f32⟩ : BufTy).Contents (Elt F) → (⟨S1x256x512x512, .f32⟩ : BufTy).Contents (Elt F)),
    unary main_arg2 main_v12 (broadcastInDim S1x256x1x1 ![1] bcast_S256_S1x256x1x1_1 : (⟨S256, .f32⟩ : BufTy).Contents (Elt F) → (⟨S1x256x1x1, .f32⟩ : BufTy).Contents (Elt F)),
    unary main_v12 main_v13 (broadcastInDim S1x256x512x512 ![0, 1, 2, 3] bcast_S1x256x1x1_S1x256x512x512_0_1_2_3 : (⟨S1x256x1x1, .f32⟩ : BufTy).Contents (Elt F) → (⟨S1x256x512x512, .f32⟩ : BufTy).Contents (Elt F)),
    binary main_v11 main_v13 main_v14 (addf : (⟨S1x256x512x512, .f32⟩ : BufTy).Contents (Elt F) → (⟨S1x256x512x512, .f32⟩ : BufTy).Contents (Elt F) → (⟨S1x256x512x512, .f32⟩ : BufTy).Contents (Elt F)) ]

set_option maxRecDepth 2048 in
/-- @main is that straight line: the two functions unfolded at their calls, sequencing reassociated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub ..⟩

set_option maxHeartbeats 1000000 in
/-- The result buffer after the forty-one operations, from any contents `V` of the buffers: `refOut` of the first
    and third arguments. -/
theorem out_eq (V : Valuation τ sig (Elt F)) :
    after ops V (main_v14 : DevRef τ sig) = refOut (V (main_arg0 : DevRef τ sig)) (V (main_arg2 : DevRef τ sig)) := by
  unfold refOut
  after_results_simp
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

/-- On every device, for any float values, from any memory with zero counters: every weakly fair execution of @main
    terminates with the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = refOut (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v14).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefRun

end
-- ==== Proof.RefValue.lean ====
/-
  The reference's result is the normalized array `G`.

  Read at an entry i of channel k, the reference's term is (x i - mean k) / sqrt (var k + ε) + beta k: every broadcast
  reads its operand at the channel's column, each of the two sums over the spatial axes is the sum over the channel's
  entries from a zero initial value, the variance function's divisor 262144 - 1 is 262143, which is positive, so the
  selection takes the quotient and never the NaN fallback; and dividing by the square root of a positive radicand is
  multiplying by its reciprocal square root.
-/
import proofs.«169887_j80616536146731_1_alg».proof.Proof.RefRun
import proofs.«169887_j80616536146731_1_alg».proof.Proof.Fibers
import Idealize.ShloMosaic.Lib.Pipeline.Value
import Idealize.ShloMosaic.Lib.IdealHost

noncomputable section

namespace Cert.ReferenceIdeal.RefValue

open Cert.ReferenceIdeal Cert.ReferenceIdeal.Gen Cert.ReferenceIdeal.RefRun Cert.ChanNorm
open Idealize.ShloMosaic Idealize.ShloMosaic.ValueIdx

/-- Channel `k`'s place in a per-channel column [1, 256, 1, 1]. -/
def colIdx (k : Fin 256) : S1x256x1x1.Idx := ix4 (0 : Fin 1) k (0 : Fin 1) (0 : Fin 1)

/-- A column spread over the array reads the column at the entry's channel. -/
theorem spread_apply (v : FVec Ideal S1x256x1x1 .f32) (i : S1x256x512x512.Idx) :
    spread (F := Ideal) v i = v (colIdx (chan i)) :=
  broadcastInDim_apply _ _ v i (colIdx (chan i))
    (fun a => match a with | ⟨0, _⟩ => rfl | ⟨1, _⟩ => rfl | ⟨2, _⟩ => rfl | ⟨3, _⟩ => rfl)

/-- A per-channel row laid out as a column reads the row at the channel. -/
theorem col_apply (v : FVec Ideal S1x256 .f32) (k : Fin 256) :
    col (F := Ideal) v (colIdx k) = v (ix2 (0 : Fin 1) k) :=
  broadcastInDim_apply _ _ v (colIdx k) (ix2 (0 : Fin 1) k)
    (fun a => match a with | ⟨0, _⟩ => rfl | ⟨1, _⟩ => rfl)

/-- A scalar's splat reads the scalar. -/
theorem splat_apply (v : FVec Ideal S_ .f32) (j : S1x256x1x1.Idx) : splat (F := Ideal) v j = v ix0 :=
  broadcastInDim_scalar_apply _ v j

/-- The per-channel shift laid out as a column reads the shift at the channel. -/
theorem shift_apply (β : FVec Ideal S256 .f32) (k : Fin 256) :
    broadcastInDim S1x256x1x1 ![1] bcast_S256_S1x256x1x1_1 β (colIdx k) = β (ix1 k) :=
  broadcastInDim_apply _ _ β (colIdx k) (ix1 k) (fun a => match a with | ⟨0, _⟩ => rfl)

/-- The sum over the spatial axes from a zero initial value, at channel `k`, is the sum over the channel's entries. -/
theorem rsum_apply (Y : FVec Ideal S1x256x512x512 .f32) (k : Fin 256) :
    rsum (F := Ideal) Y (constant (F := Ideal) S_ .f32 0x00000000#32) (ix2 (0 : Fin 1) k) = ∑ i ∈ fiber k, Y i := by
  show Ideal.ofBits .f32 0x00000000#32
      + ∑ i ∈ Finset.univ.filter (fun i => reducesTo_S1x256x512x512_S1x256_d2_3.drop i = ix2 (0 : Fin 1) k), Y i = _
  rw [Ideal.ofBits_zero_f32, zero_add, filter_drop_eq_fiber]

variable (X : FVec Ideal S1x256x512x512 .f32)

/-- The mean column at channel `k` is the channel's mean. -/
theorem meanCol_apply (k : Fin 256) : meanCol (F := Ideal) X (colIdx k) = mean X k := by
  show Ideal.div (col (rsum X (constant (F := Ideal) S_ .f32 0x00000000#32)) (colIdx k))
      (splat (constant (F := Ideal) S_ .f32 0x48800000#32) (colIdx k)) = _
  rw [col_apply, splat_apply, rsum_apply]
  rfl

/-- The array minus its spread mean column is the array of deviations. -/
theorem centered_eq : subf X (spread (meanCol X)) = fun i => dev X i := by
  funext i
  show X i - spread (meanCol X) i = _
  rw [spread_apply, meanCol_apply]
  rfl

/-- The variance function's divisor is 262143 … -/
theorem ddof_apply : ddof Ideal ix0 = nLess := by
  show Ideal.ofBits .f32 0x48800000#32 - (((1#32 : BitVec 32).toInt : ℝ) : EReal) = _
  exact nAll_sub_one

/-- … so the variance column at channel `k` is the channel's variance: the selection's condition holds. -/
theorem varCol_apply (k : Fin 256) : varCol (F := Ideal) X (colIdx k) = var X k := by
  unfold varCol
  rw [centered_eq]
  show Scalar.select (broadcastInDim S1x256x1x1 ![] bcast_S_S1x256x1x1 (cmpf .ogt (ddof Ideal) (constant (F := Ideal) S_ .f32 0x00000000#32)) (colIdx k))
      (Ideal.div (col (rsum (mulf (fun i => dev X i) (fun i => dev X i)) (constant (F := Ideal) S_ .f32 0x00000000#32)) (colIdx k))
        (splat (ddof Ideal) (colIdx k)))
      (splat (id (constant (F := Ideal) S_ .f32 0x7FC00000#32)) (colIdx k)) = _
  rw [broadcastInDim_scalar_apply, col_apply, splat_apply, rsum_apply]
  have hc : cmpf .ogt (ddof Ideal) (constant (F := Ideal) S_ .f32 0x00000000#32) ix0 = 1#1 := by
    show Ideal.cmp .ogt (ddof Ideal ix0) (Ideal.ofBits .f32 0x00000000#32) = 1#1
    rw [ddof_apply, Ideal.ofBits_zero_f32]
    show BitVec.ofBool (decide ((0 : EReal) < nLess)) = 1#1
    rw [decide_eq_true nLess_pos]; rfl
  rw [hc, ddof_apply]
  show (if (1#1 : BitVec 1) = 1 then _ else _) = _
  rw [if_pos (show (1#1 : BitVec 1) = 1 from rfl)]
  rfl

variable (β : FVec Ideal S256 .f32)

/-- THE REFERENCE'S RESULT, entry by entry, is `G` of the array and the shift. -/
theorem refOut_eq : refOut (F := Ideal) X β = G X (fun k => β (ix1 k)) := by
  funext i
  unfold refOut
  rw [centered_eq]
  show Ideal.div (dev X i) (spread (Host.sqrt (addf (varCol X) (splat (constant (F := Ideal) S_ .f32 0x3727C5AC#32)))) i)
      + spread (broadcastInDim S1x256x1x1 ![1] bcast_S256_S1x256x1x1_1 β) i = _
  rw [spread_apply, spread_apply, shift_apply]
  show Ideal.div (dev X i) (Ideal.sqrt (varCol X (colIdx (chan i)) + splat (constant (F := Ideal) S_ .f32 0x3727C5AC#32) (colIdx (chan i))))
      + β (ix1 (chan i)) = _
  rw [varCol_apply, splat_apply]
  exact quotient_eq_G X (fun k => β (ix1 k)) i

end Cert.ReferenceIdeal.RefValue

end
-- ==== Proof.lean ====
/-
  Per-channel normalization with the unbiased variance and a per-channel shift: a kernel that streams blocks of eight
  channels against the plain array program.

  For x[0, k, h, w] (256 channels of 512 × 512 entries) and a shift b[k], both programs compute
    G i = (x i - mean k) · (var k + ε)^(-1/2) + b k,   k the channel of i,
  with mean k the channel's sum over 262144 and var k the sum of the squared deviations over 262143
  (Proof/Spec.lean). The kernel works on one block of eight channels per grid point, and a block channel's entries are
  exactly an array channel's entries, so its block sums are the channel sums and the thirty-two blocks it writes back
  tile the array with `G` (Proof/Fibers.lean, Proof/KernelValue.lean). The reference sums over the whole array,
  writes its divisor as 262144 - 1 guarded by a comparison that always holds, and divides by the square root where the
  kernel multiplies by the reciprocal square root: equal on the extended reals because the radicand, a sum of squares
  over a positive number plus a positive ε, is positive (Proof/RefRun.lean, Proof/RefValue.lean). Neither side needs
  the inputs to be finite for this.

  The two kernel frames are the generated class-A frames; the reference's frame is its run with the result dropped;
  no operation of the kernel was rewritten when it was idealized, so there is nothing to preserve.
-/
import proofs.«169887_j80616536146731_1_alg».proof.Defs
import proofs.«169887_j80616536146731_1_alg».proof.Proof.Gen.Kernel
import proofs.«169887_j80616536146731_1_alg».proof.Proof.Gen.Kernel.Skeleton
import proofs.«169887_j80616536146731_1_alg».proof.Proof.Gen.Kernel.Launch
import proofs.«169887_j80616536146731_1_alg».proof.Proof.Gen.Kernel.Points
import proofs.«169887_j80616536146731_1_alg».proof.Proof.Gen.Kernel.Frame
import proofs.«169887_j80616536146731_1_alg».proof.Proof.Gen.KernelIdeal
import proofs.«169887_j80616536146731_1_alg».proof.Proof.Gen.KernelIdeal.Skeleton
import proofs.«169887_j80616536146731_1_alg».proof.Proof.Gen.KernelIdeal.Launch
import proofs.«169887_j80616536146731_1_alg».proof.Proof.Gen.KernelIdeal.Points
import proofs.«169887_j80616536146731_1_alg».proof.Proof.Gen.KernelIdeal.Frame
import proofs.«169887_j80616536146731_1_alg».proof.Proof.Gen.ReferenceIdeal
import proofs.«169887_j80616536146731_1_alg».proof.Proof.Gen.Pre_finite_inputs
import proofs.«169887_j80616536146731_1_alg».proof.Proof.KernelValue
import proofs.«169887_j80616536146731_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both runs end with the result array at `G` of arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refOut_eq, (hagree c).1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
